-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_sqrt_dim_ref" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x128 : Shape := ⟨3, ![128, 1, 128]⟩
abbrev S128x8192x128 : Shape := ⟨3, ![128, 8192, 128]⟩
abbrev S_ : Shape := ⟨0, ![]⟩

class Facts : Prop where
  bcast_S_S128x1x128 : S_.BroadcastsInDim S128x1x128 (![] : Fin 0 → Fin S128x1x128.rank)
  reducesTo_S128x1x128_S_d0_1_2 : S128x1x128.ReducesTo [0, 1, 2] S_
  h_S_ : 0 < S_.numel
  bcast_S_S128x8192x128 : S_.BroadcastsInDim S128x8192x128 (![] : Fin 0 → Fin S128x8192x128.rank)
  reducesTo_S128x8192x128_S_d0_1_2 : S128x8192x128.ReducesTo [0, 1, 2] S_

variable [Facts]

def fn {F : FTy → Type} [FloatOps F] (main_arg0 : FVec F S128x1x128 .f32) (main_arg1 : FVec F S128x8192x128 .f32) (main_arg2 : FVec F S128x8192x128 .f32) : IVec S_ 1 :=
  let main_v0 : FVec F S128x1x128 .f32 := Host.absf main_arg0
  let main_cst : FVec F S_ .f32 := constant S_ .f32 0x7F800000#32
  let main_v1 : FVec F S128x1x128 .f32 := broadcastInDim S128x1x128 ![] bcast_S_S128x1x128 main_cst
  let main_v2 : IVec S128x1x128 1 := cmpf .olt main_v0 main_v1
  let main_c : IVec S_ 1 := constantI S_ 1 1#1
  let main_v3 : IVec S_ 1 := (fun x v => Host.reduce IntOp.andi x v reducesTo_S128x1x128_S_d0_1_2 h_S_) main_v2 main_c
  let main_v4 : FVec F S128x8192x128 .f32 := Host.absf main_arg1
  let main_cst_0 : FVec F S_ .f32 := constant S_ .f32 0x7F800000#32
  let main_v5 : FVec F S128x8192x128 .f32 := broadcastInDim S128x8192x128 ![] bcast_S_S128x8192x128 main_cst_0
  let main_v6 : IVec S128x8192x128 1 := cmpf .olt main_v4 main_v5
  let main_c_1 : IVec S_ 1 := constantI S_ 1 1#1
  let main_v7 : IVec S_ 1 := (fun x v => Host.reduce IntOp.andi x v reducesTo_S128x8192x128_S_d0_1_2 h_S_) main_v6 main_c_1
  let main_v8 : IVec S_ 1 := andi main_v3 main_v7
  let main_v9 : FVec F S128x8192x128 .f32 := Host.absf main_arg2
  let main_cst_2 : FVec F S_ .f32 := constant S_ .f32 0x7F800000#32
  let main_v10 : FVec F S128x8192x128 .f32 := broadcastInDim S128x8192x128 ![] bcast_S_S128x8192x128 main_cst_2
  let main_v11 : IVec S128x8192x128 1 := cmpf .olt main_v9 main_v10
  let main_c_3 : IVec S_ 1 := constantI S_ 1 1#1
  let main_v12 : IVec S_ 1 := (fun x v => Host.reduce IntOp.andi x v reducesTo_S128x8192x128_S_d0_1_2 h_S_) main_v11 main_c_3
  let main_v13 : IVec S_ 1 := andi main_v8 main_v12
  main_v13
-- ==== Kernel.lean ====
abbrev S128x1x128 : Shape := ⟨3, ![128, 1, 128]⟩
abbrev S128x8192x128 : Shape := ⟨3, ![128, 8192, 128]⟩
abbrev S128x1x8192 : Shape := ⟨3, ![128, 1, 8192]⟩
abbrev S1x1x128 : Shape := ⟨3, ![1, 1, 128]⟩
abbrev S1x8192x128 : Shape := ⟨3, ![1, 8192, 128]⟩
abbrev S1x1x8192 : Shape := ⟨3, ![1, 1, 8192]⟩
abbrev S1x128 : Shape := ⟨2, ![1, 128]⟩
abbrev S8192x128 : Shape := ⟨2, ![8192, 128]⟩
abbrev S1x8192 : Shape := ⟨2, ![1, 8192]⟩
abbrev S1 : Shape := ⟨1, ![1]⟩
abbrev S1x1 : Shape := ⟨2, ![1, 1]⟩

abbrev nBuf : Space → Nat
  | .hbm => 5
  | .vmem => 10
  | .smem => 0
  | _ => 0

abbrev bufTy : (tb : Table) → Fin (tcTables nBuf tb) → BufTy
  | .hbm, ⟨0, _⟩ => ⟨S128x1x128, .f32⟩
  | .hbm, ⟨1, _⟩ => ⟨S128x8192x128, .f32⟩
  | .hbm, ⟨2, _⟩ => ⟨S128x8192x128, .f32⟩
  | .hbm, ⟨3, _⟩ => ⟨S128x1x128, .f32⟩
  | .hbm, ⟨4, _⟩ => ⟨S128x1x8192, .f32⟩
  | .local _ .vmem, ⟨0, _⟩ => ⟨S1x1x128, .f32⟩
  | .local _ .vmem, ⟨1, _⟩ => ⟨S1x1x128, .f32⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | .local _ .vmem, ⟨5, _⟩ => ⟨S1x8192x128, .f32⟩
  | .local _ .vmem, ⟨6, _⟩ => ⟨S1x1x128, .f32⟩
  | .local _ .vmem, ⟨7, _⟩ => ⟨S1x1x128, .f32⟩
  | .local _ .vmem, ⟨8, _⟩ => ⟨S1x1x8192, .f32⟩
  | .local _ .vmem, ⟨9, _⟩ => ⟨S1x1x8192, .f32⟩
  | _, _ => ⟨S128x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  reduces_S1x8192_S1 : S1x8192.Reduces [1] S1
  shapeCasts_S1_S1x1 : S1.ShapeCasts S1x1
  broadcasts_S1x1_S1x8192 : S1x1.Broadcasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S1x128_S1x1x128 : S1x128.ShapeCasts S1x1x128
  dot_S1x128_S8192x128_S1x8192_1_1_0_0_n_n_wf : DotDims.WF S1x128 S8192x128 S1x8192 [1] [1] [0] [0] [] []
  dot_S1x8192_S8192x128_S1x128_1_0_0_1_n_n_wf : DotDims.WF S1x8192 S8192x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128.size a ≤ S128x1x128.size a
  hwx0_0 : ∀ i : grid0.Coords, EltTy.bits .f32 = 32 ∨ (Rect.block (s := S128x1x128) S1x1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x128.size a ≤ S128x8192x128.size a
  hwx0_1 : ∀ i : grid0.Coords, EltTy.bits .f32 = 32 ∨ (Rect.block (s := S128x8192x128) S1x8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S128x8192x128.size a
  hwx0_2 : ∀ i : grid0.Coords, EltTy.bits .f32 = 32 ∨ (Rect.block (s := S128x8192x128) S1x8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S128x1x128.size a
  hwx0_3 : ∀ i : grid0.Coords, EltTy.bits .f32 = 32 ∨ (Rect.block (s := S128x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8192.size a ≤ S128x1x8192.size a
  hwx0_4 : ∀ i : grid0.Coords, EltTy.bits .f32 = 32 ∨ (Rect.block (s := S128x1x8192) S1x1x8192.size (cc0_transform_4 i) (hinb0_4 i)).WholeWords (EltTy.packing .f32)

variable [Facts₀]

def dot_S1x128_S8192x128_S1x8192_1_1_0_0_n_n : DotDims S1x128 S8192x128 S1x8192 where
  lhsContracting := [1]
  rhsContracting := [1]
  lhsNonContracting := [0]
  rhsNonContracting := [0]
  lhsBatch := []
  rhsBatch := []
  wf := dot_S1x128_S8192x128_S1x8192_1_1_0_0_n_n_wf
def dot_S1x8192_S8192x128_S1x128_1_0_0_1_n_n : DotDims S1x8192 S8192x128 S1x128 where
  lhsContracting := [1]
  rhsContracting := [0]
  lhsNonContracting := [0]
  rhsNonContracting := [1]
  lhsBatch := []
  rhsBatch := []
  wf := dot_S1x8192_S8192x128_S1x128_1_0_0_1_n_n_wf

abbrev win0_0 : Pipeline.Window sig grid0 :=
  Pipeline.Window.ofSpec (Memref.whole main_arg0) S1x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x1x128 : Shape := ⟨3, ![128, 1, 128]⟩
abbrev S128x8192x128 : Shape := ⟨3, ![128, 8192, 128]⟩
abbrev S128x1x8192 : Shape := ⟨3, ![128, 1, 8192]⟩
abbrev S_ : Shape := ⟨0, ![]⟩
abbrev S128x1 : Shape := ⟨2, ![128, 1]⟩
abbrev S128x1x1 : Shape := ⟨3, ![128, 1, 1]⟩

abbrev nBuf : Space → Nat
  | .hbm => 22
  | .vmem => 0
  | .smem => 0
  | _ => 0

abbrev bufTy : (tb : Table) → Fin (tcTables nBuf tb) → BufTy
  | .hbm, ⟨0, _⟩ => ⟨S128x1x128, .f32⟩
  | .hbm, ⟨1, _⟩ => ⟨S128x8192x128, .f32⟩
  | .hbm, ⟨2, _⟩ => ⟨S128x8192x128, .f32⟩
  | .hbm, ⟨3, _⟩ => ⟨S128x1x8192, .f32⟩
  | .hbm, ⟨4, _⟩ => ⟨S_, .f32⟩
  | .hbm, ⟨5, _⟩ => ⟨S128x1x8192, .f32⟩
  | .hbm, ⟨6, _⟩ => ⟨S128x1x8192, .f32⟩
  | .hbm, ⟨7, _⟩ => ⟨S_, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x1x1, .f32⟩
  | .hbm, ⟨13, _⟩ => ⟨S128x1x8192, .f32⟩
  | .hbm, ⟨14, _⟩ => ⟨S128x1x8192, .f32⟩
  | .hbm, ⟨15, _⟩ => ⟨S128x1x8192, .f32⟩
  | .hbm, ⟨16, _⟩ => ⟨S_, .f32⟩
  | .hbm, ⟨17, _⟩ => ⟨S128x1, .f32⟩
  | .hbm, ⟨18, _⟩ => ⟨S128x1x1, .f32⟩
  | .hbm, ⟨19, _⟩ => ⟨S128x1x8192, .f32⟩
  | .hbm, ⟨20, _⟩ => ⟨S128x1x8192, .f32⟩
  | .hbm, ⟨21, _⟩ => ⟨S128x1x128, .f32⟩
  | _, _ => ⟨S128x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S128x1x8192 : S_.BroadcastsInDim S128x1x8192 (![] : Fin 0 → Fin S128x1x8192.rank)
  reducesTo_S128x1x8192_S128x1_d2 : S128x1x8192.ReducesTo [2] S128x1
  h_S_ : 0 < S_.numel
  bcast_S_S128x1 : S_.BroadcastsInDim S128x1 (![] : Fin 0 → Fin S128x1.rank)
  bcast_S128x1_S128x1x1_0_1 : S128x1.BroadcastsInDim S128x1x1 (![0, 1] : Fin 2 → Fin S128x1x1.rank)
  bcast_S128x1x1_S128x1x8192_0_1_2 : S128x1x1.BroadcastsInDim S128x1x8192 (![0, 1, 2] : Fin 3 → Fin S128x1x8192.rank)
  dot_S128x1x128_S128x8192x128_S128x1x8192_2_2_1_1_0_0_wf : DotDims.WF S128x1x128 S128x8192x128 S128x1x8192 [2] [2] [1] [1] [0] [0]
  dot_S128x1x8192_S128x8192x128_S128x1x128_2_1_1_2_0_0_wf : DotDims.WF S128x1x8192 S128x8192x128 S128x1x128 [2] [1] [1] [2] [0] [0]

variable [Facts₀]

def dot_S128x1x128_S128x8192x128_S128x1x8192_2_2_1_1_0_0 : DotDims S128x1x128 S128x8192x128 S128x1x8192 where
  lhsContracting := [2]
  rhsContracting := [2]
  lhsNonContracting := [1]
  rhsNonContracting := [1]
  lhsBatch := [0]
  rhsBatch := [0]
  wf := dot_S128x1x128_S128x8192x128_S128x1x8192_2_2_1_1_0_0_wf
def dot_S128x1x8192_S128x8192x128_S128x1x128_2_1_1_2_0_0 : DotDims S128x1x8192 S128x8192x128 S128x1x128 where
  lhsContracting := [2]
  rhsContracting := [1]
  lhsNonContracting := [1]
  rhsNonContracting := [2]
  lhsBatch := [0]
  rhsBatch := [0]
  wf := dot_S128x1x8192_S128x8192x128_S128x1x128_2_1_1_2_0_0_wf

class Facts : Prop extends Facts₀ where

variable [Facts]
-- ==== Proof.AttnSpec.lean ====
/-
  Single-query attention of one batch member over the extended reals, stated on rows, and the two result
  arrays as functions of the three argument arrays.

  For a query row `q : Fin 128 → EReal`, key rows `k : Fin 8192 → Fin 128 → EReal` and value rows `v` of
  the same shape:
    scores q k j   = (∑ d, q d · k j d) · c,     c = 2²⁰ / 11863283, the reciprocal of the divisor 11863283 / 2²⁰;
    rowMax s       = the maximum of the row s, folded from −∞;
    expRow s j     = exp (s j − rowMax s);
    weights s j    = expRow s j / ∑ j', expRow s j';
    mix w v d      = ∑ j, w j · v j d.
  Batch member b of the attention array is `weights (scores q_b k_b)`, and of the context array
  `mix (weights (scores q_b k_b)) v_b`. No step rearranges a sum or a product, so nothing here needs the
  arguments to be finite.

  The constants: the word 0x413504F3 denotes 11863283 / 2²⁰, so dividing by it is multiplying by c on every
  extended real; the word 0xFF800000 denotes −∞, the bottom element, so a maximum against it is the identity;
  the word 0 denotes 0.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The constants -/

/-- The scale c = 2²⁰ / 11863283. -/
def invScale : EReal := ((1048576 / 11863283 : ℝ) : EReal)

/-- The divisor's word denotes 11863283 / 2²⁰. -/
theorem ofBits_divisor : Ideal.ofBits .f32 0x413504F3#32 = ((11863283 / 1048576 : ℝ) : EReal) := by
  simp [Ideal.ofBits, Ideal.ieee, -EReal.coe_mul]; norm_num

/-- The word 0xFF800000 denotes −∞. -/
theorem ofBits_negInf : Ideal.ofBits .f32 0xFF800000#32 = ⊥ := by
  simp [Ideal.ofBits, Ideal.ieee]

/-- Dividing by the divisor is multiplying by c, at the infinities too. -/
theorem div_divisor (x : EReal) : Ideal.div x (Ideal.ofBits .f32 0x413504F3#32) = x * invScale := by
  rw [ofBits_divisor, Ideal.div_coe (by norm_num : (11863283 / 1048576 : ℝ) ≠ 0)]
  unfold invScale
  congr 2
  norm_num

/-- A maximum against −∞ is the identity. -/
theorem max_negInf (x : EReal) : max (Ideal.ofBits .f32 0xFF800000#32) x = x := by
  rw [ofBits_negInf]; exact max_bot_left x

/-! ## One batch member, on rows -/

/-- The scaled scores of one query row against the key rows. -/
def scores (q : Fin 128 → EReal) (k : Fin 8192 → Fin 128 → EReal) (j : Fin 8192) : EReal :=
  (∑ d : Fin 128, q d * k j d) * invScale

/-- The row's maximum, folded from −∞. -/
def rowMax (s : Fin 8192 → EReal) : EReal :=
  (Finset.univ : Finset (Fin 8192)).fold max (Ideal.ofBits .f32 0xFF800000#32) s

/-- The shifted exponentials. -/
def expRow (s : Fin 8192 → EReal) (j : Fin 8192) : EReal := Ideal.exp (s j - rowMax s)

/-- The softmax weights of a score row. -/
def weights (s : Fin 8192 → EReal) (j : Fin 8192) : EReal :=
  Ideal.div (expRow s j) (∑ j' : Fin 8192, expRow s j')

/-- The weighted sum of the value rows. -/
def mix (w : Fin 8192 → EReal) (v : Fin 8192 → Fin 128 → EReal) (d : Fin 128) : EReal :=
  ∑ j : Fin 8192, w j * v j d

/-! ## The arrays -/

/-- Row `b` of a [128, 1, 128] array. -/
def qRow (q : (⟨3, ![128, 1, 128]⟩ : Shape).Idx → EReal) (b : Fin 128) : Fin 128 → EReal :=
  fun d => q (ix3 b 0 d)

/-- The rows of member `b` of a [128, 8192, 128] array. -/
def kRows (k : (⟨3, ![128, 8192, 128]⟩ : Shape).Idx → EReal) (b : Fin 128) : Fin 8192 → Fin 128 → EReal :=
  fun j d => k (ix3 b j d)

/-- The attention array [128, 1, 8192]: member `b` holds the softmax weights of its scaled scores. -/
def attnArr (q : (⟨3, ![128, 1, 128]⟩ : Shape).Idx → EReal) (k : (⟨3, ![128, 8192, 128]⟩ : Shape).Idx → EReal) :
    (⟨3, ![128, 1, 8192]⟩ : Shape).Idx → EReal :=
  fun i => weights (scores (qRow q (i 0)) (kRows k (i 0))) (i 2)

/-- The context array [128, 1, 128]: member `b` holds the weights' mix of its value rows. -/
def ctxArr (q : (⟨3, ![128, 1, 128]⟩ : Shape).Idx → EReal) (k v : (⟨3, ![128, 8192, 128]⟩ : Shape).Idx → EReal) :
    (⟨3, ![128, 1, 128]⟩ : Shape).Idx → EReal :=
  fun i => mix (weights (scores (qRow q (i 0)) (kRows k (i 0)))) (kRows v (i 0)) (i 2)

end Cert.Attn

end
-- ==== Proof.RefValue.lean ====
/-
  The reference's two results, stage by stage, are the attention and context arrays of the specification.

  Every stage is read at a general index and stated in terms of the specification's row functions at the
  batch member the index names (its first coordinate): the scaled scores, their maximum folded from −∞,
  the shifted exponentials, their sum, the weights, and the weights' mix of the value rows. The middle
  axis of the score and weight arrays has extent one, so its coordinate is always 0.
-/
import proofs.«156957_g5454608466691_cont_sun_c4_271_4_alg».proof.Proof.Gen.ReferenceIdeal.Read
import proofs.«156957_g5454608466691_cont_sun_c4_271_4_alg».proof.Proof.AttnSpec
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx

/-! ## The operand indices of the two contractions, by coordinates -/

/-- The query operand of the first contraction at output index `i` and contraction coordinate `k` is
    (member, 0, k): the output's middle coordinate lies in an axis of extent one. -/
theorem lidx_v0_eq (i : S128x1x8192.Idx) (k : Fin 128) : lidx_main_v0 i k = ix3 (i 0) 0 k := by
  funext a
  apply Fin.ext
  match a with
  | ⟨0, _⟩ => rfl
  | ⟨1, _⟩ =>
    have h : (i 1).val < 1 := (i 1).isLt
    show (i 1).val = 0
    omega
  | ⟨2, _⟩ => rfl

/-- The key operand of the first contraction is (member, key row, k). -/
theorem ridx_v0_eq (i : S128x1x8192.Idx) (k : Fin 128) : ridx_main_v0 i k = ix3 (i 0) (i 2) k := by
  funext a
  apply Fin.ext
  match a with
  | ⟨0, _⟩ => rfl
  | ⟨1, _⟩ => rfl
  | ⟨2, _⟩ => rfl

/-- The value operand of the second contraction is (member, key row k, feature). -/
theorem ridx_v14_eq (i : S128x1x128.Idx) (k : Fin 8192) : ridx_main_v14 i k = ix3 (i 0) k (i 2) := by
  funext a
  apply Fin.ext
  match a with
  | ⟨0, _⟩ => rfl
  | ⟨1, _⟩ => rfl
  | ⟨2, _⟩ => rfl

/-! ## The stages -/

/-- The scaled scores: the contraction over the feature axis, divided by the divisor. -/
theorem v2_eq (x0 : (⟨S128x1x128, .f32⟩ : BufTy).Contents (Elt Ideal)) (x1 : (⟨S128x8192x128, .f32⟩ : BufTy).Contents (Elt Ideal))
    (i : S128x1x8192.Idx) :
    val_main_v2 (F := Ideal) x0 x1 i
      = Cert.Attn.scores (Cert.Attn.qRow x0 (i 0)) (Cert.Attn.kRows x1 (i 0)) (i 2) := by
  rw [val_main_v2_apply, val_main_v0_apply, val_main_v1_apply, val_main_cst_apply, Ideal.hostDivf_def,
    Ideal.ofBits_def, Cert.Attn.div_divisor]
  unfold Cert.Attn.scores Cert.Attn.qRow Cert.Attn.kRows
  congr 1
  refine Finset.sum_congr rfl fun k _ => ?_
  rw [lidx_v0_eq, ridx_v0_eq]
  rfl

/-- The row maximum: the reduction over the key axis is the fold of `max` from −∞ over the row's scores. -/
theorem v3_eq (x0 : (⟨S128x1x128, .f32⟩ : BufTy).Contents (Elt Ideal)) (x1 : (⟨S128x8192x128, .f32⟩ : BufTy).Contents (Elt Ideal))
    (j : S128x1.Idx) :
    val_main_v3 (F := Ideal) x0 x1 j
      = Cert.Attn.rowMax (Cert.Attn.scores (Cert.Attn.qRow x0 (j 0)) (Cert.Attn.kRows x1 (j 0))) := by
  have h : S128x1x8192.Reduces [2] S128x1 := by decide
  unfold val_main_v3
  rw [Host.reduce_eq_fold_single (FloatOps.maximumf (F := Ideal) (φ := .f32)) (val_main_v2 (F := Ideal) x0 x1)
    (val_main_cst_0 (F := Ideal)) reducesTo_S128x1x8192_S128x1_d2 h h_S_ j]
  have hf : (val_main_v2 (F := Ideal) x0 x1 ∘ h.lift j)
      = Cert.Attn.scores (Cert.Attn.qRow x0 (j 0)) (Cert.Attn.kRows x1 (j 0)) := by
    funext k
    show val_main_v2 (F := Ideal) x0 x1 (h.lift j k) = _
    rw [v2_eq]
    rfl
  rw [hf]
  rfl

/-- The maximum against the −∞ splat changes nothing. -/
theorem v5_eq (x0 : (⟨S128x1x128, .f32⟩ : BufTy).Contents (Elt Ideal)) (x1 : (⟨S128x8192x128, .f32⟩ : BufTy).Contents (Elt Ideal))
    (j : S128x1.Idx) :
    val_main_v5 (F := Ideal) x0 x1 j
      = Cert.Attn.rowMax (Cert.Attn.scores (Cert.Attn.qRow x0 (j 0)) (Cert.Attn.kRows x1 (j 0))) := by
  rw [val_main_v5_apply, val_main_v4_apply, val_main_cst_1_apply, Ideal.maximumf_def, Ideal.ofBits_def,
    Cert.Attn.max_negInf, v3_eq]

/-- The row maximum broadcast back along the key axis. -/
theorem v7_eq (x0 : (⟨S128x1x128, .f32⟩ : BufTy).Contents (Elt Ideal)) (x1 : (⟨S128x8192x128, .f32⟩ : BufTy).Contents (Elt Ideal))
    (i : S128x1x8192.Idx) :
    val_main_v7 (F := Ideal) x0 x1 i
      = Cert.Attn.rowMax (Cert.Attn.scores (Cert.Attn.qRow x0 (i 0)) (Cert.Attn.kRows x1 (i 0))) := by
  rw [val_main_v7_apply, val_main_v6_apply, v5_eq]
  rfl

/-- The shifted exponentials. -/
theorem v9_eq (x0 : (⟨S128x1x128, .f32⟩ : BufTy).Contents (Elt Ideal)) (x1 : (⟨S128x8192x128, .f32⟩ : BufTy).Contents (Elt Ideal))
    (i : S128x1x8192.Idx) :
    val_main_v9 (F := Ideal) x0 x1 i
      = Cert.Attn.expRow (Cert.Attn.scores (Cert.Attn.qRow x0 (i 0)) (Cert.Attn.kRows x1 (i 0))) (i 2) := by
  rw [val_main_v9_apply, val_main_v8_apply, Ideal.hostUnary_exp_def, Ideal.subf_def, v2_eq, v7_eq]
  rfl

/-- The row's sum of exponentials: the reduction starts from 0. -/
theorem v10_eq (x0 : (⟨S128x1x128, .f32⟩ : BufTy).Contents (Elt Ideal)) (x1 : (⟨S128x8192x128, .f32⟩ : BufTy).Contents (Elt Ideal))
    (j : S128x1.Idx) :
    val_main_v10 (F := Ideal) x0 x1 j
      = ∑ k : Fin 8192, Cert.Attn.expRow (Cert.Attn.scores (Cert.Attn.qRow x0 (j 0)) (Cert.Attn.kRows x1 (j 0))) k := by
  rw [val_main_v10_apply, val_main_cst_2_apply, Ideal.ofBits_def, Ideal.ofBits_zero_f32, zero_add]
  refine Finset.sum_congr rfl fun k _ => ?_
  rw [v9_eq]
  rfl

/-- The sum broadcast back along the key axis. -/
theorem v12_eq (x0 : (⟨S128x1x128, .f32⟩ : BufTy).Contents (Elt Ideal)) (x1 : (⟨S128x8192x128, .f32⟩ : BufTy).Contents (Elt Ideal))
    (i : S128x1x8192.Idx) :
    val_main_v12 (F := Ideal) x0 x1 i
      = ∑ k : Fin 8192, Cert.Attn.expRow (Cert.Attn.scores (Cert.Attn.qRow x0 (i 0)) (Cert.Attn.kRows x1 (i 0))) k := by
  rw [val_main_v12_apply, val_main_v11_apply, v10_eq]
  rfl

/-- The weights: each exponential over the row's sum. -/
theorem v13_eq (x0 : (⟨S128x1x128, .f32⟩ : BufTy).Contents (Elt Ideal)) (x1 : (⟨S128x8192x128, .f32⟩ : BufTy).Contents (Elt Ideal))
    (i : S128x1x8192.Idx) :
    val_main_v13 (F := Ideal) x0 x1 i
      = Cert.Attn.weights (Cert.Attn.scores (Cert.Attn.qRow x0 (i 0)) (Cert.Attn.kRows x1 (i 0))) (i 2) := by
  rw [val_main_v13_apply, Ideal.hostDivf_def, v9_eq, v12_eq]
  rfl

/-! ## The two results -/

/-- The reference's attention result is the specification's attention array. -/
theorem attn_eq (x0 : (⟨S128x1x128, .f32⟩ : BufTy).Contents (Elt Ideal)) (x1 : (⟨S128x8192x128, .f32⟩ : BufTy).Contents (Elt Ideal)) :
    val_main_v13 (F := Ideal) x0 x1 = Cert.Attn.attnArr x0 x1 := by
  funext i
  rw [v13_eq]
  rfl

/-- The reference's context result is the specification's context array. -/
theorem ctx_eq (x0 : (⟨S128x1x128, .f32⟩ : BufTy).Contents (Elt Ideal)) (x1 x2 : (⟨S128x8192x128, .f32⟩ : BufTy).Contents (Elt Ideal)) :
    val_main_v14 (F := Ideal) x0 x1 x2 = Cert.Attn.ctxArr x0 x1 x2 := by
  funext i
  rw [val_main_v14_apply]
  unfold Cert.Attn.ctxArr Cert.Attn.mix
  refine Finset.sum_congr rfl fun k _ => ?_
  rw [v13_eq, ridx_v14_eq]
  rfl

end Cert.ReferenceIdeal.RefValue

end
-- ==== Proof.PayValue.lean ====
/-
  The kernel body's two stored values at one grid point, read at an index, are the specification's softmax
  weights and their mix of the value rows, over the rows of the three loaded blocks.
-/
import proofs.«156957_g5454608466691_cont_sun_c4_271_4_alg».proof.Proof.Gen.KernelIdeal.Skeleton
import proofs.«156957_g5454608466691_cont_sun_c4_271_4_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen
open Idealize.ShloMosaic Idealize.ShloMosaic.ValueIdx

/-- The query row of a loaded [1, 1, 128] block. -/
def qOf (P0 : Vec Ideal S1x1x128 .f32) : Fin 128 → EReal := fun d => P0 (ix3 0 0 d)

/-- The rows of a loaded [1, 8192, 128] block. -/
def rowsOf (P : Vec Ideal S1x8192x128 .f32) : Fin 8192 → Fin 128 → EReal := fun j d => P (ix3 0 j d)

/-! ## The layout steps, read at an index -/

/-- The [1, 1, 128] block read as a [1, 128] row. -/
theorem castRow_apply (P : Vec Ideal S1x1x128 .f32) (h : S1x1x128.ShapeCasts S1x128) (d : Fin 128) :
    shapeCast S1x128 P h (ix2 0 d) = P (ix3 0 0 d) :=
  shapeCast_apply P h (ix2 0 d) (ix3 0 0 d) (by
    rw [Shape.rowMajor_val_three, Shape.rowMajor_val_two]
    show (0 * 1 + 0) * 128 + d.val = 0 * 128 + d.val; omega)

/-- The [1, 8192, 128] block read as an [8192, 128] matrix. -/
theorem castRows_apply (P : Vec Ideal S1x8192x128 .f32) (h : S1x8192x128.ShapeCasts S8192x128)
    (j : Fin 8192) (d : Fin 128) :
    shapeCast S8192x128 P h (ix2 j d) = P (ix3 0 j d) :=
  shapeCast_apply P h (ix2 j d) (ix3 0 j d) (by
    rw [Shape.rowMajor_val_three, Shape.rowMajor_val_two]
    show (0 * 8192 + j.val) * 128 + d.val = j.val * 128 + d.val; omega)

/-- A one-entry vector read as a [1, 1] matrix. -/
theorem castCell_apply (x : FVec Ideal S1 .f32) (h : S1.ShapeCasts S1x1) :
    shapeCast S1x1 x h (ix2 0 0) = x (ix1 0) :=
  shapeCast_apply x h (ix2 0 0) (ix1 0) (by
    rw [Shape.rowMajor_val_one, Shape.rowMajor_val_two]; rfl)

/-- The [1, 1] matrix laid along a row of 8192 entries. -/
theorem spread_apply (x : FVec Ideal S1x1 .f32) (h : S1x1.Broadcasts S1x8192) (j : Fin 8192) :
    broadcastTo S1x8192 x h (ix2 0 j) = x (ix2 0 0) :=
  broadcastTo_apply x h (ix2 0 j) (ix2 0 0) (by
    intro a
    match a with
    | ⟨0, _⟩ => rfl
    | ⟨1, _⟩ => rfl)

/-- The [1, 8192] row stored as a [1, 1, 8192] block. -/
theorem castAttn_apply (x : FVec Ideal S1x8192 .f32) (h : S1x8192.ShapeCasts S1x1x8192) (j : Fin 8192) :
    shapeCast S1x1x8192 x h (ix3 0 0 j) = x (ix2 0 j) :=
  shapeCast_apply x h (ix3 0 0 j) (ix2 0 j) (by
    rw [Shape.rowMajor_val_three, Shape.rowMajor_val_two]
    show 0 * 8192 + j.val = (0 * 1 + 0) * 8192 + j.val; omega)

/-- The [1, 128] row stored as a [1, 1, 128] block. -/
theorem castCtx_apply (x : FVec Ideal S1x128 .f32) (h : S1x128.ShapeCasts S1x1x128) (d : Fin 128) :
    shapeCast S1x1x128 x h (ix3 0 0 d) = x (ix2 0 d) :=
  shapeCast_apply x h (ix3 0 0 d) (ix2 0 d) (by
    rw [Shape.rowMajor_val_three, Shape.rowMajor_val_two]
    show 0 * 128 + d.val = (0 * 1 + 0) * 128 + d.val; omega)

/-! ## The two reductions along the row -/

/-- The index of the row's entry `k` over the reduced index. -/
theorem lift_row (h : S1x8192.Reduces [1] S1) (k : Fin 8192) : h.lift (ix1 0) k = ix2 0 k := by
  funext a
  apply Fin.ext
  match a with
  | ⟨0, _⟩ => rfl
  | ⟨1, _⟩ => rfl

/-- The maximum along the row is the fold of `max` over the row's entries. -/
theorem rowMax_apply (x : FVec Ideal S1x8192 .f32) (h : S1x8192.Reduces [1] S1) (hφ : FKind.Formats .f32)
    (hacc : (0xFF800000#32 : BitVec 32) = FKind.maximumf.neutral .f32 hφ) :
    multiReduction (F := Ideal) .maximumf [1] S1 x 0xFF800000#32 h hφ hacc (ix1 0)
      = Cert.Attn.rowMax fun k => x (ix2 0 k) := by
  refine (Ideal.multiReduction_maximumf_single x _ h hφ hacc (ix1 0)).trans ?_
  unfold Cert.Attn.rowMax
  have e : x ∘ h.lift (ix1 0) = fun k : Fin 8192 => x (ix2 0 k) := funext fun k => congrArg x (lift_row h k)
  rw [e]
  rfl

/-- The sum along the row is the sum of the row's entries. -/
theorem rowSum_apply (x : FVec Ideal S1x8192 .f32) (h : S1x8192.Reduces [1] S1) (hφ : FKind.Formats .f32)
    (hacc : (0x00000000#32 : BitVec 32) = FKind.add.neutral .f32 hφ) :
    multiReduction (F := Ideal) .add [1] S1 x 0x00000000#32 h hφ hacc (ix1 0)
      = ∑ k : Fin 8192, x (ix2 0 k) := by
  refine (Ideal.multiReduction_add_single x _ h hφ hacc (ix1 0)).trans ?_
  exact Finset.sum_congr rfl fun k _ => congrArg x (lift_row h k)

/-! ## The first product: the query row against every key row -/

theorem lhs_qk_0 (i : S1x8192.Idx) (q : dot_S1x128_S8192x128_S1x8192_1_1_0_0_n_n.contr.Idx) :
    (dot_S1x128_S8192x128_S1x8192_1_1_0_0_n_n.lhsIdx i q 0).val = (i 0).val := by
  unfold DotDims.lhsIdx
  rw [dif_neg (show ¬(0 : Fin S1x128.rank) ∈ dot_S1x128_S8192x128_S1x8192_1_1_0_0_n_n.lhsBatch by decide), dif_pos (show (0 : Fin S1x128.rank) ∈ dot_S1x128_S8192x128_S1x8192_1_1_0_0_n_n.lhsNonContracting by decide)]
  rfl
theorem lhs_qk_1 (i : S1x8192.Idx) (q : dot_S1x128_S8192x128_S1x8192_1_1_0_0_n_n.contr.Idx) :
    (dot_S1x128_S8192x128_S1x8192_1_1_0_0_n_n.lhsIdx i q 1).val = (q ⟨0, by decide⟩).val :=
  dot_S1x128_S8192x128_S1x8192_1_1_0_0_n_n.lhsIdx_val_of_single rfl i q
theorem rhs_qk_0 (i : S1x8192.Idx) (q : dot_S1x128_S8192x128_S1x8192_1_1_0_0_n_n.contr.Idx) :
    (dot_S1x128_S8192x128_S1x8192_1_1_0_0_n_n.rhsIdx i q 0).val = (i 1).val := by
  unfold DotDims.rhsIdx
  rw [dif_neg (show ¬(0 : Fin S8192x128.rank) ∈ dot_S1x128_S8192x128_S1x8192_1_1_0_0_n_n.rhsBatch by decide), dif_pos (show (0 : Fin S8192x128.rank) ∈ dot_S1x128_S8192x128_S1x8192_1_1_0_0_n_n.rhsNonContracting by decide)]
  rfl
theorem rhs_qk_1 (i : S1x8192.Idx) (q : dot_S1x128_S8192x128_S1x8192_1_1_0_0_n_n.contr.Idx) :
    (dot_S1x128_S8192x128_S1x8192_1_1_0_0_n_n.rhsIdx i q 1).val = (q ⟨0, by decide⟩).val :=
  dot_S1x128_S8192x128_S1x8192_1_1_0_0_n_n.rhsIdx_val_of_single rfl i q

/-- Entry `j` of the product is the sum over `d` of the row's entry `d` times entry `d` of the matrix's row `j`. -/
theorem qk_apply (a : FVec Ideal S1x128 .f32) (b : FVec Ideal S8192x128 .f32) (j : Fin 8192) :
    matmul (F := Ideal) dot_S1x128_S8192x128_S1x8192_1_1_0_0_n_n none a b (constant (F := Ideal) S1x8192 .f32 0x00000000#32) (ix2 0 j)
      = ∑ d : Fin 128, a (ix2 0 d) * b (ix2 j d) := by
  refine (Ideal.matmul_constant_zero_apply dot_S1x128_S8192x128_S1x8192_1_1_0_0_n_n none a b (ix2 0 j)).trans ?_
  rw [← Equiv.sum_comp (ValueIdx.contrEquiv1 dot_S1x128_S8192x128_S1x8192_1_1_0_0_n_n 128 rfl rfl).symm]
  refine Finset.sum_congr rfl fun k _ => ?_
  have hk := ValueIdx.contrEquiv1_symm_val dot_S1x128_S8192x128_S1x8192_1_1_0_0_n_n 128 rfl rfl k
  have el : dot_S1x128_S8192x128_S1x8192_1_1_0_0_n_n.lhsIdx (ix2 0 j) ((ValueIdx.contrEquiv1 dot_S1x128_S8192x128_S1x8192_1_1_0_0_n_n 128 rfl rfl).symm k) = ix2 0 k := funext fun c => Fin.ext (by
    match c with
    | ⟨0, _⟩ => exact lhs_qk_0 _ _
    | ⟨1, _⟩ => exact (lhs_qk_1 _ _).trans hk)
  have er : dot_S1x128_S8192x128_S1x8192_1_1_0_0_n_n.rhsIdx (ix2 0 j) ((ValueIdx.contrEquiv1 dot_S1x128_S8192x128_S1x8192_1_1_0_0_n_n 128 rfl rfl).symm k) = ix2 j k := funext fun c => Fin.ext (by
    match c with
    | ⟨0, _⟩ => exact rhs_qk_0 _ _
    | ⟨1, _⟩ => exact (rhs_qk_1 _ _).trans hk)
  rw [el, er]

/-! ## The second product: the weights row against the value matrix -/

theorem lhs_wv_0 (i : S1x128.Idx) (q : dot_S1x8192_S8192x128_S1x128_1_0_0_1_n_n.contr.Idx) :
    (dot_S1x8192_S8192x128_S1x128_1_0_0_1_n_n.lhsIdx i q 0).val = (i 0).val := by
  unfold DotDims.lhsIdx
  rw [dif_neg (show ¬(0 : Fin S1x8192.rank) ∈ dot_S1x8192_S8192x128_S1x128_1_0_0_1_n_n.lhsBatch by decide), dif_pos (show (0 : Fin S1x8192.rank) ∈ dot_S1x8192_S8192x128_S1x128_1_0_0_1_n_n.lhsNonContracting by decide)]
  rfl
theorem lhs_wv_1 (i : S1x128.Idx) (q : dot_S1x8192_S8192x128_S1x128_1_0_0_1_n_n.contr.Idx) :
    (dot_S1x8192_S8192x128_S1x128_1_0_0_1_n_n.lhsIdx i q 1).val = (q ⟨0, by decide⟩).val :=
  dot_S1x8192_S8192x128_S1x128_1_0_0_1_n_n.lhsIdx_val_of_single rfl i q
theorem rhs_wv_0 (i : S1x128.Idx) (q : dot_S1x8192_S8192x128_S1x128_1_0_0_1_n_n.contr.Idx) :
    (dot_S1x8192_S8192x128_S1x128_1_0_0_1_n_n.rhsIdx i q 0).val = (q ⟨0, by decide⟩).val :=
  dot_S1x8192_S8192x128_S1x128_1_0_0_1_n_n.rhsIdx_val_of_single rfl i q
theorem rhs_wv_1 (i : S1x128.Idx) (q : dot_S1x8192_S8192x128_S1x128_1_0_0_1_n_n.contr.Idx) :
    (dot_S1x8192_S8192x128_S1x128_1_0_0_1_n_n.rhsIdx i q 1).val = (i 1).val := by
  unfold DotDims.rhsIdx
  rw [dif_neg (show ¬(1 : Fin S8192x128.rank) ∈ dot_S1x8192_S8192x128_S1x128_1_0_0_1_n_n.rhsBatch by decide), dif_pos (show (1 : Fin S8192x128.rank) ∈ dot_S1x8192_S8192x128_S1x128_1_0_0_1_n_n.rhsNonContracting by decide)]
  rfl

/-- Entry `d` of the product is the sum over `j` of the row's entry `j` times entry `d` of the matrix's row `j`. -/
theorem wv_apply (a : FVec Ideal S1x8192 .f32) (b : FVec Ideal S8192x128 .f32) (d : Fin 128) :
    matmul (F := Ideal) dot_S1x8192_S8192x128_S1x128_1_0_0_1_n_n none a b (constant (F := Ideal) S1x128 .f32 0x00000000#32) (ix2 0 d)
      = ∑ j : Fin 8192, a (ix2 0 j) * b (ix2 j d) := by
  refine (Ideal.matmul_constant_zero_apply dot_S1x8192_S8192x128_S1x128_1_0_0_1_n_n none a b (ix2 0 d)).trans ?_
  rw [← Equiv.sum_comp (ValueIdx.contrEquiv1 dot_S1x8192_S8192x128_S1x128_1_0_0_1_n_n 8192 rfl rfl).symm]
  refine Finset.sum_congr rfl fun k _ => ?_
  have hk := ValueIdx.contrEquiv1_symm_val dot_S1x8192_S8192x128_S1x128_1_0_0_1_n_n 8192 rfl rfl k
  have el : dot_S1x8192_S8192x128_S1x128_1_0_0_1_n_n.lhsIdx (ix2 0 d) ((ValueIdx.contrEquiv1 dot_S1x8192_S8192x128_S1x128_1_0_0_1_n_n 8192 rfl rfl).symm k) = ix2 0 k := funext fun c => Fin.ext (by
    match c with
    | ⟨0, _⟩ => exact lhs_wv_0 _ _
    | ⟨1, _⟩ => exact (lhs_wv_1 _ _).trans hk)
  have er : dot_S1x8192_S8192x128_S1x128_1_0_0_1_n_n.rhsIdx (ix2 0 d) ((ValueIdx.contrEquiv1 dot_S1x8192_S8192x128_S1x128_1_0_0_1_n_n 8192 rfl rfl).symm k) = ix2 k d := funext fun c => Fin.ext (by
    match c with
    | ⟨0, _⟩ => exact (rhs_wv_0 _ _).trans hk
    | ⟨1, _⟩ => exact rhs_wv_1 _ _)
  rw [el, er]

/-- The named scale is the specification's scale. -/
theorem scale_eq : Named.named (F := Ideal) κ "inv_sqrt_dim_ref" (φ := .f32) 0x3DB504F3#32 = Cert.Attn.invScale :=
  IdealRules.named_const.ideal_named_scalar _ _ _ _ rfl

/-! ## The body's row of scores and its softmax, as terms -/

/-- The body's scaled score row of two loaded blocks. -/
def scoreRow (P0 : Vec Ideal S1x1x128 .f32) (P1 : Vec Ideal S1x8192x128 .f32) : FVec Ideal S1x8192 .f32 :=
  mulf (matmul dot_S1x128_S8192x128_S1x8192_1_1_0_0_n_n none
      (shapeCast S1x128 P0 shapeCasts_S1x1x128_S1x128 : FVec Ideal S1x128 .f32)
      (shapeCast S8192x128 P1 shapeCasts_S1x8192x128_S8192x128 : FVec Ideal S8192x128 .f32)
      (constant (F := Ideal) S1x8192 .f32 0x00000000#32))
    (broadcast S1x8192 (Named.named (F := Ideal) κ "inv_sqrt_dim_ref" (φ := .f32) 0x3DB504F3#32))

/-- The body's shifted exponentials of a row. -/
def expVec (s : FVec Ideal S1x8192 .f32) : FVec Ideal S1x8192 .f32 :=
  exp (subf s (broadcastTo S1x8192 (shapeCast S1x1
    (multiReduction (F := Ideal) .maximumf [1] S1 s 0xFF800000#32 reduces_S1x8192_S1 (.inl rfl) rfl) shapeCasts_S1_S1x1)
    broadcasts_S1x1_S1x8192))

/-- The body's softmax of a row. -/
def softmaxVec (s : FVec Ideal S1x8192 .f32) : FVec Ideal S1x8192 .f32 :=
  divf (expVec s) (broadcastTo S1x8192 (shapeCast S1x1
    (multiReduction (F := Ideal) .add [1] S1 (expVec s) 0x00000000#32 reduces_S1x8192_S1 (.inl rfl) rfl) shapeCasts_S1_S1x1)
    broadcasts_S1x1_S1x8192)

/-- The first payload is the softmax of the score row. -/
theorem pay1_eq (P0 : Vec Ideal S1x1x128 .f32) (P1 : Vec Ideal S1x8192x128 .f32) :
    k0_pay1 (F := Ideal) P0 P1 = softmaxVec (scoreRow P0 P1) := rfl

/-- The score row at column `j` is the specification's score. -/
theorem scoreRow_apply (P0 : Vec Ideal S1x1x128 .f32) (P1 : Vec Ideal S1x8192x128 .f32) (j : Fin 8192) :
    scoreRow P0 P1 (ix2 0 j) = Cert.Attn.scores (qOf P0) (rowsOf P1) j := by
  unfold scoreRow Cert.Attn.scores
  rw [mulf_apply, broadcast_apply, scale_eq, qk_apply]
  refine congrArg (· * Cert.Attn.invScale) (Finset.sum_congr rfl fun d _ => ?_)
  rw [castRow_apply, castRows_apply]
  rfl

/-- The shifted exponentials at column `j`. -/
theorem expVec_apply (s : FVec Ideal S1x8192 .f32) (j : Fin 8192) :
    expVec s (ix2 0 j) = Cert.Attn.expRow (fun k => s (ix2 0 k)) j := by
  unfold expVec Cert.Attn.expRow
  show Ideal.exp (s (ix2 0 j) - broadcastTo S1x8192 _ broadcasts_S1x1_S1x8192 (ix2 0 j)) = _
  refine congrArg (fun m => Ideal.exp (s (ix2 0 j) - m)) ?_
  exact (spread_apply _ _ j).trans ((castCell_apply _ _).trans (rowMax_apply s _ _ _))

/-- The softmax at column `j`. -/
theorem softmaxVec_apply (s : FVec Ideal S1x8192 .f32) (j : Fin 8192) :
    softmaxVec s (ix2 0 j) = Cert.Attn.weights (fun k => s (ix2 0 k)) j := by
  unfold softmaxVec Cert.Attn.weights
  show Ideal.div (expVec s (ix2 0 j)) (broadcastTo S1x8192 _ broadcasts_S1x1_S1x8192 (ix2 0 j)) = _
  rw [expVec_apply]
  refine congrArg (Ideal.div _) ?_
  refine (spread_apply _ _ j).trans ((castCell_apply _ _).trans ((rowSum_apply (expVec s) _ _ _).trans ?_))
  exact Finset.sum_congr rfl fun k _ => expVec_apply s k

/-- The softmax row the body computes, at column `j`. -/
theorem pay1_apply (P0 : Vec Ideal S1x1x128 .f32) (P1 : Vec Ideal S1x8192x128 .f32) (j : Fin 8192) :
    k0_pay1 (F := Ideal) P0 P1 (ix2 0 j) = Cert.Attn.weights (Cert.Attn.scores (qOf P0) (rowsOf P1)) j := by
  rw [pay1_eq, softmaxVec_apply]
  exact congrArg (fun s => Cert.Attn.weights s j) (funext fun k => scoreRow_apply P0 P1 k)

/-- The attention block the body stores, at column `j`. -/
theorem pay2_apply (P0 : Vec Ideal S1x1x128 .f32) (P1 : Vec Ideal S1x8192x128 .f32) (j : Fin 8192) :
    k0_pay2 (F := Ideal) P0 P1 (ix3 0 0 j) = Cert.Attn.weights (Cert.Attn.scores (qOf P0) (rowsOf P1)) j := by
  unfold k0_pay2
  exact (castAttn_apply _ _ j).trans (pay1_apply P0 P1 j)

/-- The context block the body stores, at column `d`. -/
theorem pay3_apply (P0 : Vec Ideal S1x1x128 .f32) (P1 P2 : Vec Ideal S1x8192x128 .f32) (d : Fin 128) :
    k0_pay3 (F := Ideal) P0 P1 P2 (ix3 0 0 d)
      = Cert.Attn.mix (Cert.Attn.weights (Cert.Attn.scores (qOf P0) (rowsOf P1))) (rowsOf P2) d := by
  unfold k0_pay3 Cert.Attn.mix
  refine (castCtx_apply _ _ d).trans ?_
  refine (wv_apply _ _ d).trans ?_
  refine Finset.sum_congr rfl fun j _ => ?_
  rw [pay1_apply, castRows_apply]
  rfl

end Cert.KernelIdeal.PayValue

end
-- ==== Proof.KernelRun.lean ====
/-
  From blocks to arrays. Grid point t handles batch member t: every window's block at t is member t of its
  array (block index (t, 0, 0), the other two axes whole). So the query block's row is row t of the query
  array, the key and value blocks' rows are member t's rows, and what the point writes back to the two
  result arrays is member t of the specification's attention and context arrays. The 128 points' blocks tile
  each result array, so after the run each result array IS the specification's array.
-/
import proofs.«156957_g5454608466691_cont_sun_c4_271_4_alg».proof.Proof.Gen.KernelIdeal.Value
import proofs.«156957_g5454608466691_cont_sun_c4_271_4_alg».proof.Proof.PayValue
import proofs.«156957_g5454608466691_cont_sun_c4_271_4_alg».proof.Proof.AttnSpec
import Idealize.ShloMosaic.Lib.Pipeline.Value
import Idealize.ShloMosaic.Lib.ValueIdx

noncomputable section

namespace Cert.KernelIdeal.RunValue

open Cert.KernelIdeal Cert.KernelIdeal.Gen Cert.KernelIdeal.Value Cert.KernelIdeal.PayValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- Every window's block index at point `t` is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The three argument arrays as the region finds them. -/
abbrev qArr (c : Dev nD) : S128x1x128.Idx → EReal := V m c main_arg0
abbrev kArr (c : Dev nD) : S128x8192x128.Idx → EReal := V m c main_arg1
abbrev vArr (c : Dev nD) : S128x8192x128.Idx → EReal := V m c main_arg2

/-- The batch member a grid point handles. -/
def bOf (t : Fin cfg0.N) : Fin 128 := ⟨t.val, by have h : cfg0.N = 128 := N_0; have := t.isLt; omega⟩

/-- The query block at point `t` is row `t` of the query array. -/
theorem qBlk_row (c : Dev nD) (t : Fin cfg0.N) : qOf (iblk m c 0 t) = Cert.Attn.qRow (qArr m c) (bOf t) := by
  funext d
  show V m c main_arg0 (((cfg0.win 0).blk t).view.emb (ix3 0 0 d)) = V m c main_arg0 (ix3 (bOf t) 0 d)
  congr 1
  obtain ⟨e0, e1, e2, -⟩ := idx_facts t
  funext a; apply Fin.ext
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 128 + 1 * d.val = d.val; omega

/-- The key block at point `t` holds member `t`'s rows of the key array. -/
theorem kBlk_rows (c : Dev nD) (t : Fin cfg0.N) : rowsOf (iblk m c 1 t) = Cert.Attn.kRows (kArr m c) (bOf t) := by
  funext j d
  show V m c main_arg1 (((cfg0.win 1).blk t).view.emb (ix3 0 j d)) = V m c main_arg1 (ix3 (bOf t) j d)
  congr 1
  obtain ⟨-, -, -, e0, e1, e2, -⟩ := idx_facts t
  funext a; apply Fin.ext
  match a with
  | ⟨0, _⟩ => show win0_1.index t (0 : Fin 3) * 1 + 1 * 0 = t.val; omega
  | ⟨1, _⟩ => show win0_1.index t (1 : Fin 3) * 8192 + 1 * j.val = j.val; omega
  | ⟨2, _⟩ => show win0_1.index t (2 : Fin 3) * 128 + 1 * d.val = d.val; omega

/-- The value block at point `t` holds member `t`'s rows of the value array. -/
theorem vBlk_rows (c : Dev nD) (t : Fin cfg0.N) : rowsOf (iblk m c 2 t) = Cert.Attn.kRows (vArr m c) (bOf t) := by
  funext j d
  show V m c main_arg2 (((cfg0.win 2).blk t).view.emb (ix3 0 j d)) = V m c main_arg2 (ix3 (bOf t) j d)
  congr 1
  obtain ⟨-, -, -, -, -, -, e0, e1, e2, -⟩ := idx_facts t
  funext a; apply Fin.ext
  match a with
  | ⟨0, _⟩ => show win0_2.index t (0 : Fin 3) * 1 + 1 * 0 = t.val; omega
  | ⟨1, _⟩ => show win0_2.index t (1 : Fin 3) * 8192 + 1 * j.val = j.val; omega
  | ⟨2, _⟩ => show win0_2.index t (2 : Fin 3) * 128 + 1 * d.val = d.val; omega

/-- The attention block the body stores at point `t`, at block index `y`, is the specification's attention array at
    any array index `i` in member `t` with `y`'s column. -/
theorem attn_block (c : Dev nD) (t : Fin cfg0.N) (y : S1x1x8192.Idx) (i : S128x1x8192.Idx)
    (h0 : (i 0).val = t.val) (h2 : (i 2).val = (y 2).val) :
    k0_pay2 (F := Ideal) (iblk m c 0 t) (iblk m c 1 t) y = Cert.Attn.attnArr (qArr m c) (kArr m c) i := by
  obtain ⟨j, rfl⟩ : ∃ j : Fin 8192, y = ix3 0 0 j := ⟨y 2, by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl⟩
  rw [pay2_apply, qBlk_row, kBlk_rows]
  unfold Cert.Attn.attnArr
  have e0 : i 0 = bOf t := Fin.ext h0
  have e2 : i 2 = j := Fin.ext h2
  rw [e0, e2]

/-- The context block the body stores at point `t`, at block index `y`, is the specification's context array at any
    array index `i` in member `t` with `y`'s column. -/
theorem ctx_block (c : Dev nD) (t : Fin cfg0.N) (y : S1x1x128.Idx) (i : S128x1x128.Idx)
    (h0 : (i 0).val = t.val) (h2 : (i 2).val = (y 2).val) :
    k0_pay3 (F := Ideal) (iblk m c 0 t) (iblk m c 1 t) (iblk m c 2 t) y
      = Cert.Attn.ctxArr (qArr m c) (kArr m c) (vArr m c) i := by
  obtain ⟨d, rfl⟩ : ∃ d : Fin 128, y = ix3 0 0 d := ⟨y 2, by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl⟩
  rw [pay3_apply, qBlk_row, kBlk_rows, vBlk_rows]
  unfold Cert.Attn.ctxArr
  have e0 : i 0 = bOf t := Fin.ext h0
  have e2 : i 2 = d := Fin.ext h2
  rw [e0, e2]

/-- What point `t` writes back to the attention array is block `t` of the specification's attention array. -/
theorem flushed4_eq (c : Dev nD) (t : Fin cfg0.N) :
    (dats m 0 c).flushed 4 t
      = ((cfg0.win 4).blk t).view.read (Elt Ideal) (Cert.Attn.attnArr (qArr m c) (kArr m c)) := by
  rw [Value.flushed4]
  unfold out0_4
  rw [View.canon_unit_zero hz]
  simp only [View.ld_unit_zero (S := S1x1x128) hz, View.ld_unit_zero (S := S1x8192x128) hz]
  funext y
  obtain ⟨-, -, -, -, -, -, -, -, -, -, -, -, e0, e1, e2⟩ := idx_facts t
  refine attn_block m c t y (((cfg0.win 4).blk t).view.emb y) ?_ ?_
  · show win0_4.index t (0 : Fin 3) * 1 + 1 * (y 0).val = t.val
    have : (y 0).val < 1 := (y 0).isLt
    omega
  · show win0_4.index t (2 : Fin 3) * 8192 + 1 * (y 2).val = (y 2).val
    omega

/-- What point `t` writes back to the context array is block `t` of the specification's context array. -/
theorem flushed3_eq (c : Dev nD) (t : Fin cfg0.N) :
    (dats m 0 c).flushed 3 t
      = ((cfg0.win 3).blk t).view.read (Elt Ideal) (Cert.Attn.ctxArr (qArr m c) (kArr m c) (vArr m c)) := by
  rw [Value.flushed3]
  unfold out0_3
  rw [View.canon_unit_zero hz]
  simp only [View.ld_unit_zero (S := S1x1x128) hz, View.ld_unit_zero (S := S1x8192x128) hz]
  funext y
  obtain ⟨-, -, -, -, -, -, -, -, -, e0, e1, e2, -⟩ := idx_facts t
  refine ctx_block m c t y (((cfg0.win 3).blk t).view.emb y) ?_ ?_
  · show win0_3.index t (0 : Fin 3) * 1 + 1 * (y 0).val = t.val
    have : (y 0).val < 1 := (y 0).isLt
    omega
  · show win0_3.index t (2 : Fin 3) * 128 + 1 * (y 2).val = (y 2).val
    omega

/-! ## The blocks tile the result arrays -/

/-- An index of the attention array is in point `t`'s block iff each coordinate is in the block's range on its axis. -/
theorem mem_blk4 (t : Fin cfg0.N) (i : S128x1x8192.Idx) :
    i ∈ ((cfg0.win 4).blk t).view.set ↔ ∀ a : Fin 3, win0_4.index t a * S1x1x8192.size a ≤ (i a).val
      ∧ (i a).val < win0_4.index t a * S1x1x8192.size a + S1x1x8192.size a := by
  show i ∈ ((View.whole main_v0_1).slice (win0_4.rect t)).set ↔ _
  rw [View.set_slice_whole, Rect.mem_set_unit]
  exact Iff.rfl

/-- An index of the context array is in point `t`'s block iff each coordinate is in the block's range on its axis. -/
theorem mem_blk3 (t : Fin cfg0.N) (i : S128x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v0_0).slice (win0_3.rect t)).set ↔ _
  rw [View.set_slice_whole, Rect.mem_set_unit]
  exact Iff.rfl

/-- Every index of the attention array lies in the block of the point its member names. -/
theorem cover4 (i : S128x1x8192.Idx) :
    ∃ t : Fin cfg0.N, (cfg0.win 4).flush t = true ∧ i ∈ ((cfg0.win 4).blk t).view.set := by
  have hN : cfg0.N = 128 := N_0
  have hi0 : (i 0).val < 128 := (i 0).isLt
  have hi1 : (i 1).val < 1 := (i 1).isLt
  have hi2 : (i 2).val < 8192 := (i 2).isLt
  obtain ⟨t, ht⟩ : ∃ t : Fin cfg0.N, t.val = (i 0).val := ⟨⟨(i 0).val, by omega⟩, rfl⟩
  refine ⟨t, flush0_4 t, ?_⟩
  rw [mem_blk4]
  obtain ⟨-, -, -, -, -, -, -, -, -, -, -, -, e0, e1, e2⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 8192 ≤ (i 2).val ∧ (i 2).val < win0_4.index t (2 : Fin 3) * 8192 + 8192; omega

/-- Every index of the context array lies in the block of the point its member names. -/
theorem cover3 (i : S128x1x128.Idx) :
    ∃ t : Fin cfg0.N, (cfg0.win 3).flush t = true ∧ i ∈ ((cfg0.win 3).blk t).view.set := by
  have hN : cfg0.N = 128 := N_0
  have hi0 : (i 0).val < 128 := (i 0).isLt
  have hi1 : (i 1).val < 1 := (i 1).isLt
  have hi2 : (i 2).val < 128 := (i 2).isLt
  obtain ⟨t, ht⟩ : ∃ t : Fin cfg0.N, t.val = (i 0).val := ⟨⟨(i 0).val, by omega⟩, rfl⟩
  refine ⟨t, flush0_3 t, ?_⟩
  rw [mem_blk3]
  obtain ⟨-, -, -, -, -, -, -, -, -, e0, e1, e2, -⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 128 ≤ (i 2).val ∧ (i 2).val < win0_3.index t (2 : Fin 3) * 128 + 128; omega

/-! ## The arrays after the run -/

/-- The attention array after the run is the specification's. -/
theorem final4 (c : Dev nD) : (dats m 0 c).arrAt 4 cfg0.N = Cert.Attn.attnArr (qArr m c) (kArr m c) :=
  (dats m 0 c).arrAt_eq_of_cover 4 (Cert.Attn.attnArr (qArr m c) (kArr m c)) (fun t _ => flushed4_eq m c t) cover4

/-- The context array after the run is the specification's. -/
theorem final3 (c : Dev nD) : (dats m 0 c).arrAt 3 cfg0.N = Cert.Attn.ctxArr (qArr m c) (kArr m c) (vArr m c) :=
  (dats m 0 c).arrAt_eq_of_cover 3 (Cert.Attn.ctxArr (qArr m c) (kArr m c) (vArr m c)) (fun t _ => flushed3_eq m c t) cover3

/-- The kernel's run, read: each result array at the specification's function of the argument arrays, the
    arguments unchanged. -/
theorem run : θ_run defs (onTc (τ := τ) (main (F := Ideal))) ⟨m, fun _ => 0, ρ⟩ fun r => ∀ c : Dev nD,
      r.2.mem ((c : Thread nD τ).loc main_v0_0)
        = Cert.Attn.ctxArr (m ((c : Thread nD τ).loc main_arg0)) (m ((c : Thread nD τ).loc main_arg1)) (m ((c : Thread nD τ).loc main_arg2))
      ∧ r.2.mem ((c : Thread nD τ).loc main_v0_1)
        = Cert.Attn.attnArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.RunValue

end
-- ==== Proof.lean ====
/-
  The proof of `Cert.Claim`: single-query scaled dot-product attention, one batch member per grid point,
  against its whole-batch reference, over the extended reals.

  Both programs compute, for each batch member b,
      attn_b = softmax of (q_b · k_bᵀ) / D,      ctx_b = attn_b · v_b,
  with D the reference's divisor 11863283 / 2²⁰. The kernel multiplies by a constant named as the reciprocal
  2²⁰ / 11863283 where the reference divides by D; on the extended reals division by a nonzero real IS the
  product with its reciprocal, so the two scaled scores are one value. Everything after that is the same
  operations in the same order: the row maximum folded from −∞ (the reference's further maximum against −∞ is
  the identity), the shifted exponentials, their sum from 0, the quotient, and the contraction with the value
  rows. No sum or product is rearranged, so the precondition is never opened.

  Proof/AttnSpec.lean states that value once, on rows and as the two result arrays. Proof/RefValue.lean reads the
  reference's run stage by stage to it. Proof/PayValue.lean reads the kernel body's two stored values at an index
  to it; Proof/KernelRun.lean carries that from blocks to arrays (each grid point's blocks are its batch member,
  and the 128 points tile both result arrays). Here the five claims are assembled: the three frames from the
  generated frames and the reference's generated run, the one ledger entry's statement, and the equivalence with
  both runs posted at the specification's arrays.
-/
import proofs.«156957_g5454608466691_cont_sun_c4_271_4_alg».proof.Defs
import proofs.«156957_g5454608466691_cont_sun_c4_271_4_alg».proof.Proof.Gen.Kernel
import proofs.«156957_g5454608466691_cont_sun_c4_271_4_alg».proof.Proof.Gen.Kernel.Skeleton
import proofs.«156957_g5454608466691_cont_sun_c4_271_4_alg».proof.Proof.Gen.Kernel.Launch
import proofs.«156957_g5454608466691_cont_sun_c4_271_4_alg».proof.Proof.Gen.Kernel.Points
import proofs.«156957_g5454608466691_cont_sun_c4_271_4_alg».proof.Proof.Gen.Kernel.Frame
import proofs.«156957_g5454608466691_cont_sun_c4_271_4_alg».proof.Proof.Gen.KernelIdeal
import proofs.«156957_g5454608466691_cont_sun_c4_271_4_alg».proof.Proof.Gen.KernelIdeal.Skeleton
import proofs.«156957_g5454608466691_cont_sun_c4_271_4_alg».proof.Proof.Gen.KernelIdeal.Launch
import proofs.«156957_g5454608466691_cont_sun_c4_271_4_alg».proof.Proof.Gen.KernelIdeal.Points
import proofs.«156957_g5454608466691_cont_sun_c4_271_4_alg».proof.Proof.Gen.KernelIdeal.Frame
import proofs.«156957_g5454608466691_cont_sun_c4_271_4_alg».proof.Proof.Gen.ReferenceIdeal
import proofs.«156957_g5454608466691_cont_sun_c4_271_4_alg».proof.Proof.Gen.Pre_finite_inputs
import proofs.«156957_g5454608466691_cont_sun_c4_271_4_alg».proof.Proof.Gen.KernelIdeal.Value
import proofs.«156957_g5454608466691_cont_sun_c4_271_4_alg».proof.Proof.Gen.ReferenceIdeal.Run
import proofs.«156957_g5454608466691_cont_sun_c4_271_4_alg».proof.Proof.Gen.ReferenceIdeal.Read
import proofs.«156957_g5454608466691_cont_sun_c4_271_4_alg».proof.Proof.AttnSpec
import proofs.«156957_g5454608466691_cont_sun_c4_271_4_alg».proof.Proof.RefValue
import proofs.«156957_g5454608466691_cont_sun_c4_271_4_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ledger's one entry: the table gives the kernel's scale constant the value 2²⁰ / 11863283. -/
theorem preserves : Cert.preserves_Kernel_KernelIdeal :=
  IdealRules.named_const.statement Cert.KernelIdeal.κ "inv_sqrt_dim_ref" .f32 0x3DB504F3#32
    ((1048576 / 11863283 : ℝ) : EReal) rfl

/-- From memories agreeing on the three arguments, the kernel's result arrays end at the specification's context and
    attention arrays of its arguments, and the reference's at the same arrays of its own, which are the kernel's. -/
theorem algebraic : Cert.algebraic_KernelIdeal_ReferenceIdeal := by
  intro m ρ m' ρ' _ hagree
  refine ⟨fun c => Cert.Attn.ctxArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Attn.attnArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, Cert.ReferenceIdeal.RefValue.ctx_eq,
      (hagree c).1, (hagree c).2.1, (hagree c).2.2]
  · rw [Cert.ReferenceIdeal.Read.val_main_v13_eq, Cert.ReferenceIdeal.RefValue.attn_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
